-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S8192x2048 : Shape := ⟨2, ![8192, 2048]⟩
abbrev S8192 : Shape := ⟨1, ![8192]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_arg5 : FVec F S8192x2048 .f32) (main_arg6 : FVec F S8192 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S8192x2048 .f32 := Host.absf main_arg5
  let main_cst_8 : FVec F S_ .f32 := constant S_ .f32 0x7F800000#32
  let main_v25 : FVec F S8192x2048 .f32 := broadcastInDim S8192x2048 ![] bcast_S_S8192x2048 main_cst_8
  let main_v26 : IVec S8192x2048 1 := cmpf .olt main_v24 main_v25
  let main_c_9 : IVec S_ 1 := constantI S_ 1 1#1
  let main_v27 : IVec S_ 1 := (fun x v => Host.reduce IntOp.andi x v reducesTo_S8192x2048_S_d0_1 h_S_) main_v26 main_c_9
  let main_v28 : IVec S_ 1 := andi main_v23 main_v27
  let main_v29 : FVec F S8192 .f32 := Host.absf main_arg6
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  main_v33

def fn {F : FTy → Type} [FloatOps F] (main_arg0 : FVec F S4096x2048 .f32) (main_arg1 : FVec F S4096x2048 .f32) (main_arg2 : FVec F S4096x2048 .f32) (main_arg3 : FVec F S8192x2048 .f32) (main_arg4 : FVec F S8192 .f32) (main_arg5 : FVec F S8192x2048 .f32) (main_arg6 : FVec F S8192 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_arg5 main_arg6 main_v13 main_v16
-- ==== Kernel.lean ====
abbrev S4096x2048 : Shape := ⟨2, ![4096, 2048]⟩
abbrev S8192x2048 : Shape := ⟨2, ![8192, 2048]⟩
abbrev S8192 : Shape := ⟨1, ![8192]⟩
abbrev S4x2048x2048 : Shape := ⟨3, ![4, 2048, 2048]⟩
abbrev S4x2048 : Shape := ⟨2, ![4, 2048]⟩
abbrev S512x2048 : Shape := ⟨2, ![512, 2048]⟩
abbrev S4x256x2048 : Shape := ⟨3, ![4, 256, 2048]⟩
abbrev S4x256 : Shape := ⟨2, ![4, 256]⟩
abbrev S512x256 : Shape := ⟨2, ![512, 256]⟩
abbrev S1x256x2048 : Shape := ⟨3, ![1, 256, 2048]⟩
abbrev S256x2048 : Shape := ⟨2, ![256, 2048]⟩
abbrev S1x256 : Shape := ⟨2, ![1, 256]⟩
abbrev S256 : Shape := ⟨1, ![256]⟩

abbrev nBuf : Space → Nat
  | .hbm => 17
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S8192x2048, .f32⟩
  | .hbm, ⟨4, _⟩ => ⟨S8192, .f32⟩
  | .hbm, ⟨5, _⟩ => ⟨S8192x2048, .f32⟩
  | .hbm, ⟨6, _⟩ => ⟨S8192, .f32⟩
  | .hbm, ⟨7, _⟩ => ⟨S4096x2048, .bf16⟩
  | .hbm, ⟨8, _⟩ => ⟨S4096x2048, .bf16⟩
  | .hbm, ⟨9, _⟩ => ⟨S4x2048x2048, .f32⟩
  | .hbm, ⟨10, _⟩ => ⟨S4x2048x2048, .bf16⟩
  | .hbm, ⟨11, _⟩ => ⟨S4x2048x2048, .f32⟩
  | .hbm, ⟨12, _⟩ => ⟨S4x2048x2048, .bf16⟩
  | .hbm, ⟨13, _⟩ => ⟨S4x2048, .f32⟩
  | .hbm, ⟨14, _⟩ => ⟨S4x2048, .f32⟩
  | .hbm, ⟨15, _⟩ => ⟨S4096x2048, .f32⟩
  | .hbm, ⟨16, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S4x256x2048, .bf16⟩
  | .local _ .vmem, ⟨5, _⟩ => ⟨S4x256x2048, .bf16⟩
  | .local _ .vmem, ⟨6, _⟩ => ⟨S4x256, .f32⟩
  | .local _ .vmem, ⟨7, _⟩ => ⟨S4x256, .f32⟩
  | .local _ .vmem, ⟨8, _⟩ => ⟨S4x256x2048, .bf16⟩
  | .local _ .vmem, ⟨9, _⟩ => ⟨S4x256x2048, .bf16⟩
  | .local _ .vmem, ⟨10, _⟩ => ⟨S4x256, .f32⟩
  | .local _ .vmem, ⟨11, _⟩ => ⟨S4x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  bitsLt_bf16_f32 : FTy.bits .bf16 < FTy.bits .f32
  shapeCasts_S8192x2048_S4x2048x2048 : S8192x2048.ShapeCasts S4x2048x2048
  shapeCasts_S8192_S4x2048 : S8192.ShapeCasts S4x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x256_S512x256_0_0 : ∀ a, (![0, 0] : Fin 2 → Nat) a + S512x256.size a ≤ S512x256.size a
  h_S512x256 : 0 < S512x256.numel
  inb_S4x256x2048_S1x256x2048_0_0_0 : ∀ a, (![0, 0, 0] : Fin 3 → Nat) a + S1x256x2048.size a ≤ S4x256x2048.size a
  h_S1x256x2048 : 0 < S1x256x2048.numel
  shapeCasts_S1x256x2048_S256x2048 : S1x256x2048.ShapeCasts S256x2048
  inb_S4x256_S1x256_0_0 : ∀ a, (![0, 0] : Fin 2 → Nat) a + S1x256.size a ≤ S4x256.size a
  h_S1x256 : 0 < S1x256.numel
  shapeCasts_S1x256_S256 : S1x256.ShapeCasts S256
  shapeCasts_S256_S1x256 : S256.ShapeCasts S1x256
  broadcasts_S1x256_S512x256 : S1x256.Broadcasts S512x256
  inb_S4x256x2048_S1x256x2048_1_0_0 : ∀ a, (![1, 0, 0] : Fin 3 → Nat) a + S1x256x2048.size a ≤ S4x256x2048.size a
  inb_S4x256_S1x256_1_0 : ∀ a, (![1, 0] : Fin 2 → Nat) a + S1x256.size a ≤ S4x256.size a
  inb_S4x256x2048_S1x256x2048_2_0_0 : ∀ a, (![2, 0, 0] : Fin 3 → Nat) a + S1x256x2048.size a ≤ S4x256x2048.size a
  inb_S4x256_S1x256_2_0 : ∀ a, (![2, 0] : Fin 2 → Nat) a + S1x256.size a ≤ S4x256.size a
  inb_S4x256x2048_S1x256x2048_3_0_0 : ∀ a, (![3, 0, 0] : Fin 3 → Nat) a + S1x256x2048.size a ≤ S4x256x2048.size a
  inb_S4x256_S1x256_3_0 : ∀ a, (![3, 0] : Fin 2 → Nat) a + S1x256.size a ≤ S4x256.size a
  dot_S512x2048_S256x2048_S512x256_1_1_0_0_n_n_wf : DotDims.WF S512x2048 S256x2048 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .bf16 = 32 ∨ (Rect.block (s := S4096x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x256x2048.size a ≤ S4x2048x2048.size a
  hwx0_2 : ∀ i : grid0.Coords, EltTy.bits .bf16 = 32 ∨ (Rect.block (s := S4x2048x2048) S4x256x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x256.size a ≤ S4x2048.size a
  hwx0_3 : ∀ i : grid0.Coords, EltTy.bits .f32 = 32 ∨ (Rect.block (s := S4x2048) S4x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x256x2048.size a ≤ S4x2048x2048.size a
  hwx0_4 : ∀ i : grid0.Coords, EltTy.bits .bf16 = 32 ∨ (Rect.block (s := S4x2048x2048) S4x256x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x256.size a ≤ S4x2048.size a
  hwx0_5 : ∀ i : grid0.Coords, EltTy.bits .f32 = 32 ∨ (Rect.block (s := S4x2048) S4x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S4096x2048.size a
  hwx0_6 : ∀ i : grid0.Coords, EltTy.bits .f32 = 32 ∨ (Rect.block (s := S4096x2048) S512x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S4096x2048.size a
  hwx0_7 : ∀ i : grid0.Coords, EltTy.bits .f32 = 32 ∨ (Rect.block (s := S4096x2048) S512x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x256.size a ≤ S4096x2048.size a
  hwx0_8 : ∀ i : grid0.Coords, EltTy.bits .f32 = 32 ∨ (Rect.block (s := S4096x2048) S512x256.size (cc0_transform_8 i) (hinb0_8 i)).WholeWords (EltTy.packing .f32)

variable [Facts₀]

def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S4x256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S4x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S4x256x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S4x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S512x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_0) S512x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8_1) S512x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S8192x2048 : Shape := ⟨2, ![8192, 2048]⟩
abbrev S8192 : Shape := ⟨1, ![8192]⟩
abbrev S2048x8192 : Shape := ⟨2, ![2048, 8192]⟩
abbrev S4096x8192 : Shape := ⟨2, ![4096, 8192]⟩
abbrev S1x8192 : Shape := ⟨2, ![1, 8192]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S8192x2048, .f32⟩
  | .hbm, ⟨4, _⟩ => ⟨S8192, .f32⟩
  | .hbm, ⟨5, _⟩ => ⟨S8192x2048, .f32⟩
  | .hbm, ⟨6, _⟩ => ⟨S8192, .f32⟩
  | .hbm, ⟨7, _⟩ => ⟨S2048x8192, .f32⟩
  | .hbm, ⟨8, _⟩ => ⟨S4096x8192, .f32⟩
  | .hbm, ⟨9, _⟩ => ⟨S1x8192, .f32⟩
  | .hbm, ⟨10, _⟩ => ⟨S4096x8192, .f32⟩
  | .hbm, ⟨11, _⟩ => ⟨S4096x8192, .f32⟩
  | .hbm, ⟨12, _⟩ => ⟨S2048x8192, .f32⟩
  | .hbm, ⟨13, _⟩ => ⟨S4096x8192, .f32⟩
  | .hbm, ⟨14, _⟩ => ⟨S4096x8192, .f32⟩
  | .hbm, ⟨15, _⟩ => ⟨S1x8192, .f32⟩
  | .hbm, ⟨16, _⟩ => ⟨S4096x8192, .f32⟩
  | .hbm, ⟨17, _⟩ => ⟨S4096x8192, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  transposes_S8192x2048_S2048x8192_1_0 : S8192x2048.Transposes [1, 0] S2048x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  dot_S4096x2048_S2048x8192_S4096x8192_1_0_0_1_n_n_wf : DotDims.WF S4096x2048 S2048x8192 S4096x8192 [1] [0] [0] [1] [] []

variable [Facts₀]

def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf

class Facts : Prop extends Facts₀ where

variable [Facts]
-- ==== Proof.Gates.lean ====
/-
  The kernel body's four gate pre-activations, read at one element of the output tile.

  For an output tile of 512 batch rows by 256 hidden units the body holds the rows' activations `A`, `B` (512 × 2048 each)
  and, per gate, a 1 × 256 × 2048 slab of each weight and a 1 × 256 row of each bias. A gate's pre-activation at tile
  element (r, q) is
      Σ_k A[r,k]·Wa[0,q,k] + Σ_k B[r,k]·Wb[0,q,k] + ba[0,q] + bb[0,q]:
  each matrix unit product into a zero accumulator is the plain sum over the contracted axis (axis 1 of both operands),
  the slab loses its unit axis by a shape cast that keeps the row-major order, and a bias row is broadcast down the
  512 rows.
-/
import proofs.«123469_j67078799229551_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.CellValue

open Cert.KernelIdeal Cert.KernelIdeal.Gen Idealize.ShloMosaic Idealize.ShloMosaic.ValueIdx

/-! ## The matrix product's operand indices -/

theorem lhs_axis0 (i : S512x256.Idx) (q : dot_S512x2048_S256x2048_S512x256_1_1_0_0_n_n.contr.Idx) :
    (dot_S512x2048_S256x2048_S512x256_1_1_0_0_n_n.lhsIdx i q 0).val = (i 0).val := by
  unfold DotDims.lhsIdx
  rw [dif_neg (show ¬(0 : Fin S512x2048.rank) ∈ dot_S512x2048_S256x2048_S512x256_1_1_0_0_n_n.lhsBatch by decide), dif_pos (show (0 : Fin S512x2048.rank) ∈ dot_S512x2048_S256x2048_S512x256_1_1_0_0_n_n.lhsNonContracting by decide)]
  rfl

theorem lhs_axis1 (i : S512x256.Idx) (q : dot_S512x2048_S256x2048_S512x256_1_1_0_0_n_n.contr.Idx) :
    (dot_S512x2048_S256x2048_S512x256_1_1_0_0_n_n.lhsIdx i q 1).val = (q ⟨0, by decide⟩).val :=
  dot_S512x2048_S256x2048_S512x256_1_1_0_0_n_n.lhsIdx_val_of_single rfl i q

theorem rhs_axis0 (i : S512x256.Idx) (q : dot_S512x2048_S256x2048_S512x256_1_1_0_0_n_n.contr.Idx) :
    (dot_S512x2048_S256x2048_S512x256_1_1_0_0_n_n.rhsIdx i q 0).val = (i 1).val := by
  unfold DotDims.rhsIdx
  rw [dif_neg (show ¬(0 : Fin S256x2048.rank) ∈ dot_S512x2048_S256x2048_S512x256_1_1_0_0_n_n.rhsBatch by decide), dif_pos (show (0 : Fin S256x2048.rank) ∈ dot_S512x2048_S256x2048_S512x256_1_1_0_0_n_n.rhsNonContracting by decide)]
  rfl

theorem rhs_axis1 (i : S512x256.Idx) (q : dot_S512x2048_S256x2048_S512x256_1_1_0_0_n_n.contr.Idx) :
    (dot_S512x2048_S256x2048_S512x256_1_1_0_0_n_n.rhsIdx i q 1).val = (q ⟨0, by decide⟩).val :=
  dot_S512x2048_S256x2048_S512x256_1_1_0_0_n_n.rhsIdx_val_of_single rfl i q

/-! ## One product, one bias row -/

/-- A weight slab with its unit axis dropped, read at (q, k), is the slab at (0, q, k). -/
theorem slab_apply (W : FVec Ideal S1x256x2048 .bf16) (q : Fin 256) (k : Fin 2048) :
    shapeCast S256x2048 W shapeCasts_S1x256x2048_S256x2048 (ix2 q k) = W (ix3 0 q k) :=
  shapeCast_apply W shapeCasts_S1x256x2048_S256x2048 (ix2 q k) (ix3 0 q k) (by
    rw [Shape.rowMajor_val_three, Shape.rowMajor_val_two]
    show ((0 : Nat) * 256 + q.val) * 2048 + k.val = q.val * 2048 + k.val
    omega)

/-- The matrix unit's product of the rows' activations with a gate's weight slab, into a zero accumulator, at tile
    element (r, q): the sum over the 2048 features. -/
theorem product_apply (A : FVec Ideal S512x2048 .bf16) (W : FVec Ideal S1x256x2048 .bf16) (r : Fin 512) (q : Fin 256) :
    matmul dot_S512x2048_S256x2048_S512x256_1_1_0_0_n_n none A (shapeCast S256x2048 W shapeCasts_S1x256x2048_S256x2048)
        (constant S512x256 .f32 0x00000000#32) (ix2 r q)
      = ∑ k : Fin 2048, A (ix2 r k) * W (ix3 0 q k) := by
  simp only [matmul]
  rw [Ideal.matmul_constant_zero_apply, ← Equiv.sum_comp (ValueIdx.contrEquiv1 dot_S512x2048_S256x2048_S512x256_1_1_0_0_n_n 2048 rfl rfl).symm]
  refine Finset.sum_congr rfl fun k _ => ?_
  have hk := ValueIdx.contrEquiv1_symm_val dot_S512x2048_S256x2048_S512x256_1_1_0_0_n_n 2048 rfl rfl k
  have el : dot_S512x2048_S256x2048_S512x256_1_1_0_0_n_n.lhsIdx (ix2 r q) ((ValueIdx.contrEquiv1 dot_S512x2048_S256x2048_S512x256_1_1_0_0_n_n 2048 rfl rfl).symm k) = ix2 r k := funext fun a => Fin.ext (by
    match a with
    | ⟨0, _⟩ => exact lhs_axis0 _ _
    | ⟨1, _⟩ => exact (lhs_axis1 _ _).trans hk)
  have er : dot_S512x2048_S256x2048_S512x256_1_1_0_0_n_n.rhsIdx (ix2 r q) ((ValueIdx.contrEquiv1 dot_S512x2048_S256x2048_S512x256_1_1_0_0_n_n 2048 rfl rfl).symm k) = ix2 q k := funext fun a => Fin.ext (by
    match a with
    | ⟨0, _⟩ => exact rhs_axis0 _ _
    | ⟨1, _⟩ => exact (rhs_axis1 _ _).trans hk)
  rw [el, er, slab_apply]

/-- A bias row, flattened, given back its unit axis and broadcast down the tile's rows, read at (r, q), is the row
    at (0, q). -/
theorem biasRow_apply (v : FVec Ideal S1x256 .f32) (r : Fin 512) (q : Fin 256) :
    broadcastTo S512x256 (shapeCast S1x256 (shapeCast S256 v shapeCasts_S1x256_S256) shapeCasts_S256_S1x256)
        broadcasts_S1x256_S512x256 (ix2 r q) = v (ix2 0 q) := by
  refine (broadcastTo_apply _ _ (ix2 r q) (ix2 0 q) (fun a => match a with
    | ⟨0, _⟩ => by show 0 = (if (1 : Nat) = 1 then 0 else r.val); rw [if_pos rfl]
    | ⟨1, _⟩ => by show q.val = (if (256 : Nat) = 1 then 0 else q.val); rw [if_neg (by decide)])).trans ?_
  refine (shapeCast_apply _ _ (ix2 0 q) (ix1 q) (by
    rw [Shape.rowMajor_val_one, Shape.rowMajor_val_two]; show q.val = 0 * 256 + q.val; omega)).trans ?_
  exact shapeCast_apply _ _ (ix1 q) (ix2 0 q) (by
    rw [Shape.rowMajor_val_two, Shape.rowMajor_val_one]; show 0 * 256 + q.val = q.val; omega)

/-! ## A gate's pre-activation on the tile -/

/-- A gate's pre-activation at tile element (r, q), from the operands the body holds: the two products, then the two
    bias rows. -/
def tilePre (A B : FVec Ideal S512x2048 .bf16) (Wa Wb : FVec Ideal S1x256x2048 .bf16) (ba bb : FVec Ideal S1x256 .f32)
    (r : Fin 512) (q : Fin 256) : EReal :=
  (∑ k : Fin 2048, A (ix2 r k) * Wa (ix3 0 q k)) + (∑ k : Fin 2048, B (ix2 r k) * Wb (ix3 0 q k)) + ba (ix2 0 q) + bb (ix2 0 q)

/-- The two products of a gate, added (the operands as the later gates receive them). -/
theorem products_apply (A B : FVec Ideal S512x2048 .bf16) (Wa Wb : FVec Ideal S1x256x2048 .bf16) (r : Fin 512) (q : Fin 256) :
    k0_pay9 (F := Ideal) A B Wa Wb (ix2 r q)
      = (∑ k : Fin 2048, A (ix2 r k) * Wa (ix3 0 q k)) + (∑ k : Fin 2048, B (ix2 r k) * Wb (ix3 0 q k)) := by
  unfold k0_pay9
  exact congrArg₂ (· + ·) (product_apply A Wa r q) (product_apply B Wb r q)

/-- A cast of the activations to their own shape changes nothing. -/
theorem ownShape (A : FVec Ideal S512x2048 .bf16) : shapeCast S512x2048 A shapeCasts_S512x2048_S512x2048 = A :=
  shapeCast_self A _

/-- The same two products, the operands as the first gates receive them (through a cast to their own shape). -/
theorem products_apply' (A B : FVec Ideal S512x2048 .bf16) (Wa Wb : FVec Ideal S1x256x2048 .bf16) (r : Fin 512) (q : Fin 256) :
    k0_pay6 (F := Ideal) A B Wa Wb (ix2 r q)
      = (∑ k : Fin 2048, A (ix2 r k) * Wa (ix3 0 q k)) + (∑ k : Fin 2048, B (ix2 r k) * Wb (ix3 0 q k)) := by
  unfold k0_pay6 k0_pay3 k0_pay4
  refine Eq.trans ?_ (congrArg₂ (· + ·) (product_apply A Wa r q) (product_apply B Wb r q))
  exact congrArg₂ (fun a b : FVec Ideal S512x2048 .bf16 =>
      matmul dot_S512x2048_S256x2048_S512x256_1_1_0_0_n_n none a (shapeCast S256x2048 Wa shapeCasts_S1x256x2048_S256x2048) (constant S512x256 .f32 0x00000000#32) (ix2 r q)
        + matmul dot_S512x2048_S256x2048_S512x256_1_1_0_0_n_n none b (shapeCast S256x2048 Wb shapeCasts_S1x256x2048_S256x2048) (constant S512x256 .f32 0x00000000#32) (ix2 r q))
    (ownShape A) (ownShape B)

/-- The output gate's and the forget gate's pre-activations: the body adds the bias rows to the products afterwards. -/
theorem products_bias (A B : FVec Ideal S512x2048 .bf16) (Wa Wb : FVec Ideal S1x256x2048 .bf16) (ba bb : FVec Ideal S1x256 .f32)
    (r : Fin 512) (q : Fin 256) :
    k0_pay9 (F := Ideal) (shapeCast S512x2048 A shapeCasts_S512x2048_S512x2048) (shapeCast S512x2048 B shapeCasts_S512x2048_S512x2048) Wa Wb (ix2 r q)
        + ba (ix2 0 q) + bb (ix2 0 q) = tilePre A B Wa Wb ba bb r q := by
  rw [ownShape, ownShape, products_apply]; rfl

theorem products_bias' (A B : FVec Ideal S512x2048 .bf16) (Wa Wb : FVec Ideal S1x256x2048 .bf16) (ba bb : FVec Ideal S1x256 .f32)
    (r : Fin 512) (q : Fin 256) :
    k0_pay6 (F := Ideal) A B Wa Wb (ix2 r q) + ba (ix2 0 q) + bb (ix2 0 q) = tilePre A B Wa Wb ba bb r q := by
  rw [products_apply']; rfl

/-- The input gate's pre-activation, computed whole by one stretch of the body. -/
theorem inputPre_apply (A B : FVec Ideal S512x2048 .bf16) (Wa Wb : FVec Ideal S1x256x2048 .bf16) (ba bb : FVec Ideal S1x256 .f32)
    (r : Fin 512) (q : Fin 256) :
    k0_pay5 (F := Ideal) A B Wa Wb ba bb (ix2 r q) = tilePre A B Wa Wb ba bb r q := by
  refine Eq.trans ?_ (products_bias' A B Wa Wb ba bb r q)
  unfold k0_pay5 k0_pay6
  exact congrArg₂ (· + ·) (congrArg (_ + ·) (biasRow_apply ba r q)) (biasRow_apply bb r q)

/-- The candidate's pre-activation, likewise. -/
theorem candidatePre_apply (A B : FVec Ideal S512x2048 .bf16) (Wa Wb : FVec Ideal S1x256x2048 .bf16) (ba bb : FVec Ideal S1x256 .f32)
    (r : Fin 512) (q : Fin 256) :
    k0_pay8 (F := Ideal) (shapeCast S512x2048 A shapeCasts_S512x2048_S512x2048) (shapeCast S512x2048 B shapeCasts_S512x2048_S512x2048) Wa Wb ba bb (ix2 r q)
      = tilePre A B Wa Wb ba bb r q := by
  refine Eq.trans ?_ (products_bias A B Wa Wb ba bb r q)
  unfold k0_pay8 k0_pay9
  exact congrArg₂ (· + ·) (congrArg (_ + ·) (biasRow_apply ba r q)) (biasRow_apply bb r q)

end Cert.KernelIdeal.CellValue

end
-- ==== Proof.Tile.lean ====
/-
  What the body leaves in the two output tiles, element by element.

  The generated value leg has already read the body's stores as one pointwise expression over the loads, with the four
  gates' products kept whole. Here each product is opened (a sum over the features) and the expression is recognised:
  with `g₀ … g₃` the four gate pre-activations at tile element (r, q),
      new cell   = σ(g₁)·c + σ(g₀)·tanh(g₂),      new hidden = σ(g₃)·tanh(new cell).
-/
import proofs.«123469_j67078799229551_1_alg».proof.Proof.Gen.KernelIdeal.Value
import proofs.«123469_j67078799229551_1_alg».proof.Proof.Gates

noncomputable section

namespace Cert.KernelIdeal.CellValue

open Cert.KernelIdeal Cert.KernelIdeal.Gen Idealize.ShloMosaic Idealize.ShloMosaic.ValueIdx

section
variable (P0 P1 : FVec Ideal S512x2048 .bf16) (P2 P3 : FVec Ideal S1x256x2048 .bf16) (P4 P5 : FVec Ideal S1x256 .f32)

/-- The new hidden state at tile element (r, q), from the body's loads. -/
theorem hiddenExpr_apply (P6 P7 : FVec Ideal S1x256x2048 .bf16) (P8 P9 : FVec Ideal S1x256 .f32) (P10 : FVec Ideal S512x256 .f32)
    (P11 P12 : FVec Ideal S1x256x2048 .bf16) (P13 P14 : FVec Ideal S1x256 .f32)
    (P15 P16 : FVec Ideal S1x256x2048 .bf16) (P17 P18 : FVec Ideal S1x256 .f32) (r : Fin 512) (q : Fin 256) :
    Value.E7 (F := Ideal) P0 P1 P2 P3 P4 P5 P6 P7 P8 P9 P10 P11 P12 P13 P14 P15 P16 P17 P18 (ix2 r q)
      = Ideal.logistic (tilePre P0 P1 P2 P3 P4 P5 r q)
          * Ideal.tanh (Ideal.logistic (tilePre P0 P1 P6 P7 P8 P9 r q) * P10 (ix2 r q)
              + Ideal.logistic (tilePre P0 P1 P11 P12 P13 P14 r q) * Ideal.tanh (tilePre P0 P1 P15 P16 P17 P18 r q)) := by
  have e0 : Value.ix7_0 (ix2 r q) = ix2 r q := funext fun a => Fin.ext (by match a with | ⟨0, _⟩ => rfl | ⟨1, _⟩ => rfl)
  have e3 : Value.ix7_3 (ix2 r q) = ix2 r q := funext fun a => Fin.ext (by match a with | ⟨0, _⟩ => rfl | ⟨1, _⟩ => rfl)
  have e6 : Value.ix7_6 (ix2 r q) = ix2 r q := funext fun a => Fin.ext (by match a with | ⟨0, _⟩ => rfl | ⟨1, _⟩ => rfl)
  have e7 : Value.ix7_7 (ix2 r q) = ix2 r q := funext fun a => Fin.ext (by match a with | ⟨0, _⟩ => rfl | ⟨1, _⟩ => rfl)
  have e8 : Value.ix7_8 (ix2 r q) = ix2 r q := funext fun a => Fin.ext (by match a with | ⟨0, _⟩ => rfl | ⟨1, _⟩ => rfl)
  have e1 : Value.ix7_1 (ix2 r q) = ix2 0 q := funext fun a => Fin.ext (by match a with | ⟨0, _⟩ => rfl | ⟨1, _⟩ => rfl)
  have e2 : Value.ix7_2 (ix2 r q) = ix2 0 q := funext fun a => Fin.ext (by match a with | ⟨0, _⟩ => rfl | ⟨1, _⟩ => rfl)
  have e4 : Value.ix7_4 (ix2 r q) = ix2 0 q := funext fun a => Fin.ext (by match a with | ⟨0, _⟩ => rfl | ⟨1, _⟩ => rfl)
  have e5 : Value.ix7_5 (ix2 r q) = ix2 0 q := funext fun a => Fin.ext (by match a with | ⟨0, _⟩ => rfl | ⟨1, _⟩ => rfl)
  rw [← products_bias P0 P1 P2 P3 P4 P5 r q, ← products_bias' P0 P1 P6 P7 P8 P9 r q, ← inputPre_apply P0 P1 P11 P12 P13 P14 r q,
    ← candidatePre_apply P0 P1 P15 P16 P17 P18 r q]
  dsimp only [Value.E7]
  rw [e0, e1, e2, e3, e4, e5, e6, e7, e8]
  rfl

/-- The new cell state at tile element (r, q), from the body's loads. -/
theorem cellExpr_apply (P6 : FVec Ideal S512x256 .f32) (P7 P8 : FVec Ideal S1x256x2048 .bf16) (P9 P10 : FVec Ideal S1x256 .f32)
    (P11 P12 : FVec Ideal S1x256x2048 .bf16) (P13 P14 : FVec Ideal S1x256 .f32) (r : Fin 512) (q : Fin 256) :
    Value.E8 (F := Ideal) P0 P1 P2 P3 P4 P5 P6 P7 P8 P9 P10 P11 P12 P13 P14 (ix2 r q)
      = Ideal.logistic (tilePre P0 P1 P2 P3 P4 P5 r q) * P6 (ix2 r q)
          + Ideal.logistic (tilePre P0 P1 P7 P8 P9 P10 r q) * Ideal.tanh (tilePre P0 P1 P11 P12 P13 P14 r q) := by
  have e0 : Value.ix8_0 (ix2 r q) = ix2 r q := funext fun a => Fin.ext (by match a with | ⟨0, _⟩ => rfl | ⟨1, _⟩ => rfl)
  have e3 : Value.ix8_3 (ix2 r q) = ix2 r q := funext fun a => Fin.ext (by match a with | ⟨0, _⟩ => rfl | ⟨1, _⟩ => rfl)
  have e4 : Value.ix8_4 (ix2 r q) = ix2 r q := funext fun a => Fin.ext (by match a with | ⟨0, _⟩ => rfl | ⟨1, _⟩ => rfl)
  have e5 : Value.ix8_5 (ix2 r q) = ix2 r q := funext fun a => Fin.ext (by match a with | ⟨0, _⟩ => rfl | ⟨1, _⟩ => rfl)
  have e1 : Value.ix8_1 (ix2 r q) = ix2 0 q := funext fun a => Fin.ext (by match a with | ⟨0, _⟩ => rfl | ⟨1, _⟩ => rfl)
  have e2 : Value.ix8_2 (ix2 r q) = ix2 0 q := funext fun a => Fin.ext (by match a with | ⟨0, _⟩ => rfl | ⟨1, _⟩ => rfl)
  rw [← products_bias' P0 P1 P2 P3 P4 P5 r q, ← inputPre_apply P0 P1 P7 P8 P9 P10 r q, ← candidatePre_apply P0 P1 P11 P12 P13 P14 r q]
  dsimp only [Value.E8]
  rw [e0, e1, e2, e3, e4, e5]
  rfl

end

end Cert.KernelIdeal.CellValue

end
-- ==== Proof.Spec.lean ====
/-
  The LSTM cell both programs compute, stated once over the argument arrays.

  For batch row `b` and stacked row `n` (the four gates' rows lie one after another, 2048 rows each: input, forget,
  candidate, output) the pre-activation is
      pre b n = (Σ_k x[b,k]·Wx[n,k] + bx[n]) + Σ_k h[b,k]·Wh[n,k] + bh[n].
  With σ the logistic function, the new cell state and hidden state of unit `j` are
      c'[b,j] = σ(pre b (2048+j)) · c[b,j] + σ(pre b j) · tanh(pre b (4096+j)),
      h'[b,j] = σ(pre b (6144+j)) · tanh(c'[b,j]).
  Everything is read on the extended reals, where addition is commutative and associative (so the order in which the
  two products and the two biases are added does not matter) and σ z is 1 / (1 + exp(-z)) by definition.
-/
import Idealize.ShloMosaic.PureOps.Ideal.Laws
import Idealize.ShloMosaic.Lib.ValueIdx

noncomputable section

namespace Cert.LstmCell

open Idealize.ShloMosaic Idealize.ShloMosaic.ValueIdx

/-- Activations and states: batch × features. -/
abbrev Act : Shape := ⟨2, ![4096, 2048]⟩
/-- The stacked gate weights: (4 · hidden) × features. -/
abbrev Wt : Shape := ⟨2, ![8192, 2048]⟩
/-- The stacked gate biases. -/
abbrev Bias : Shape := ⟨1, ![8192]⟩

/-- The stacked row that feeds gate `g` (0 input, 1 forget, 2 candidate, 3 output) of hidden unit `j`. -/
def gateRow (g : Fin 4) (j : Fin 2048) : Fin 8192 := ⟨g.val * 2048 + j.val, by have := g.isLt; have := j.isLt; omega⟩

@[simp] theorem gateRow_val (g : Fin 4) (j : Fin 2048) : (gateRow g j).val = g.val * 2048 + j.val := rfl

section
variable (x h c : Act.Idx → EReal) (Wx : Wt.Idx → EReal) (bx : Bias.Idx → EReal) (Wh : Wt.Idx → EReal) (bh : Bias.Idx → EReal)

/-- The input-to-hidden product of batch row `b` with stacked row `n`. -/
def dotX (b : Fin 4096) (n : Fin 8192) : EReal := ∑ k : Fin 2048, x (ix2 b k) * Wx (ix2 n k)

/-- The hidden-to-hidden product of batch row `b` with stacked row `n`. -/
def dotH (b : Fin 4096) (n : Fin 8192) : EReal := ∑ k : Fin 2048, h (ix2 b k) * Wh (ix2 n k)

/-- The pre-activation of stacked row `n` for batch row `b`, summed in the order
    (input product + input bias) + hidden product + hidden bias. -/
def pre (b : Fin 4096) (n : Fin 8192) : EReal :=
  dotX x Wx b n + bx (ix1 n) + dotH h Wh b n + bh (ix1 n)

/-- The same four terms summed as (input product + hidden product) + input bias + hidden bias: on the extended
    reals addition is commutative and associative, so this is the same number. -/
theorem pre_eq_products_first (b : Fin 4096) (n : Fin 8192) :
    dotX x Wx b n + dotH h Wh b n + bx (ix1 n) + bh (ix1 n) = pre x h Wx bx Wh bh b n := by
  unfold pre
  rw [add_right_comm (dotX x Wx b n) (dotH h Wh b n) (bx (ix1 n))]

/-- The new cell state of unit `j` in batch row `b`. -/
def cellAt (b : Fin 4096) (j : Fin 2048) : EReal :=
  Ideal.logistic (pre x h Wx bx Wh bh b (gateRow 1 j)) * c (ix2 b j)
    + Ideal.logistic (pre x h Wx bx Wh bh b (gateRow 0 j)) * Ideal.tanh (pre x h Wx bx Wh bh b (gateRow 2 j))

/-- The new hidden state of unit `j` in batch row `b`. -/
def hiddenAt (b : Fin 4096) (j : Fin 2048) : EReal :=
  Ideal.logistic (pre x h Wx bx Wh bh b (gateRow 3 j)) * Ideal.tanh (cellAt x h c Wx bx Wh bh b j)

/-- The new cell state as an array. -/
def cellState : Act.Idx → EReal := fun i => cellAt x h c Wx bx Wh bh (i 0) (i 1)

/-- The new hidden state as an array. -/
def hiddenState : Act.Idx → EReal := fun i => hiddenAt x h c Wx bx Wh bh (i 0) (i 1)

end

/-- The single-precision word of 1.0 denotes the real number one. -/
theorem ofBits_one_f32 : Ideal.ofBits .f32 0x3F800000#32 = 1 := by
  simp [Ideal.ofBits, Ideal.ieee, -EReal.coe_mul]; norm_num

/-- The logistic function written out with a negation, an exponential, a sum with one and a quotient of one — the
    way a host program spells it — is the logistic function. -/
theorem logistic_expanded (z : EReal) :
    FloatOps.hostDivf (F := Ideal) (φ := .f32) (Ideal.ofBits .f32 0x3F800000#32)
      (FloatOps.addf (F := Ideal) (φ := .f32) (Ideal.ofBits .f32 0x3F800000#32)
        (FloatOps.hostUnary (F := Ideal) (φ := .f32) .exp (FloatOps.hostNegf (F := Ideal) (φ := .f32) z)))
      = Ideal.logistic z := by
  rw [ofBits_one_f32]; rfl

end Cert.LstmCell

end
-- ==== Proof.TileCell.lean ====
/-
  One output tile against the cell.

  Grid point (hi, bi) works on batch rows [512·bi, 512·bi + 512) and hidden units [256·hi, 256·hi + 256). Its operands
  are blocks of the arrays: the rows' activations, and for each gate `g` rows [g·2048 + 256·hi, … + 256) of the stacked
  weights and biases — exactly the rows that feed gate `g` of the tile's hidden units. Given that, the tile's gate
  pre-activations are `pre` at those rows (only the order of the four summands differs, which the extended reals do
  not see), and the two stored tiles are the cell's new hidden and cell state there.
-/
import proofs.«123469_j67078799229551_1_alg».proof.Proof.Tile
import proofs.«123469_j67078799229551_1_alg».proof.Proof.Spec

noncomputable section

namespace Cert.KernelIdeal.CellValue

open Cert.KernelIdeal Cert.KernelIdeal.Gen Cert.LstmCell Idealize.ShloMosaic Idealize.ShloMosaic.ValueIdx

/-- A gate's pre-activation on the tile is the cell's, once every operand is known to be the slice of its array that
    batch row `b` and stacked row `n` name. -/
theorem tilePre_eq (A B : FVec Ideal S512x2048 .bf16) (Wa Wb : FVec Ideal S1x256x2048 .bf16) (ba bb : FVec Ideal S1x256 .f32)
    (X H : Act.Idx → EReal) (Wx : Wt.Idx → EReal) (bx : Bias.Idx → EReal) (Wh : Wt.Idx → EReal) (bh : Bias.Idx → EReal)
    (b : Fin 4096) (n : Fin 8192) (r : Fin 512) (q : Fin 256)
    (hA : ∀ k : Fin 2048, A (ix2 r k) = X (ix2 b k)) (hB : ∀ k : Fin 2048, B (ix2 r k) = H (ix2 b k))
    (hWa : ∀ k : Fin 2048, Wa (ix3 0 q k) = Wx (ix2 n k)) (hWb : ∀ k : Fin 2048, Wb (ix3 0 q k) = Wh (ix2 n k))
    (hba : ba (ix2 0 q) = bx (ix1 n)) (hbb : bb (ix2 0 q) = bh (ix1 n)) :
    tilePre A B Wa Wb ba bb r q = pre X H Wx bx Wh bh b n := by
  rw [← pre_eq_products_first]
  unfold tilePre dotX dotH
  rw [hba, hbb, Finset.sum_congr rfl fun k _ => (by rw [hA k, hWa k] : A (ix2 r k) * Wa (ix3 0 q k) = X (ix2 b k) * Wx (ix2 n k)),
    Finset.sum_congr rfl fun k _ => (by rw [hB k, hWb k] : B (ix2 r k) * Wb (ix3 0 q k) = H (ix2 b k) * Wh (ix2 n k))]

/-! ## The body's loads, read through their rectangles -/

theorem ld_act (x : Vec Ideal S512x2048 .bf16) (r : Fin 512) (k : Fin 2048) : View.ld x r0_0 (ix2 r k) = x (ix2 r k) :=
  congrArg x (funext fun a => Fin.ext (by
    match a with
    | ⟨0, _⟩ => show 0 + 1 * r.val = r.val; omega
    | ⟨1, _⟩ => show 0 + 1 * k.val = k.val; omega))

theorem ld_state (x : Vec Ideal S512x256 .f32) (r : Fin 512) (q : Fin 256) : View.ld x r0_1 (ix2 r q) = x (ix2 r q) :=
  congrArg x (funext fun a => Fin.ext (by
    match a with
    | ⟨0, _⟩ => show 0 + 1 * r.val = r.val; omega
    | ⟨1, _⟩ => show 0 + 1 * q.val = q.val; omega))

theorem ld_slab_0 (x : Vec Ideal S4x256x2048 .bf16) (q : Fin 256) (k : Fin 2048) : View.ld x r0_2 (ix3 0 q k) = x (ix3 0 q k) :=
  congrArg x (funext fun a => Fin.ext (by
    match a with
    | ⟨0, _⟩ => rfl
    | ⟨1, _⟩ => show 0 + 1 * q.val = q.val; omega
    | ⟨2, _⟩ => show 0 + 1 * k.val = k.val; omega))

theorem ld_row_0 (x : Vec Ideal S4x256 .f32) (q : Fin 256) : View.ld x r0_3 (ix2 0 q) = x (ix2 0 q) :=
  congrArg x (funext fun a => Fin.ext (by
    match a with
    | ⟨0, _⟩ => rfl
    | ⟨1, _⟩ => show 0 + 1 * q.val = q.val; omega))

theorem ld_slab_1 (x : Vec Ideal S4x256x2048 .bf16) (q : Fin 256) (k : Fin 2048) : View.ld x r0_4 (ix3 0 q k) = x (ix3 1 q k) :=
  congrArg x (funext fun a => Fin.ext (by
    match a with
    | ⟨0, _⟩ => rfl
    | ⟨1, _⟩ => show 0 + 1 * q.val = q.val; omega
    | ⟨2, _⟩ => show 0 + 1 * k.val = k.val; omega))

theorem ld_row_1 (x : Vec Ideal S4x256 .f32) (q : Fin 256) : View.ld x r0_5 (ix2 0 q) = x (ix2 1 q) :=
  congrArg x (funext fun a => Fin.ext (by
    match a with
    | ⟨0, _⟩ => rfl
    | ⟨1, _⟩ => show 0 + 1 * q.val = q.val; omega))

theorem ld_slab_2 (x : Vec Ideal S4x256x2048 .bf16) (q : Fin 256) (k : Fin 2048) : View.ld x r0_6 (ix3 0 q k) = x (ix3 2 q k) :=
  congrArg x (funext fun a => Fin.ext (by
    match a with
    | ⟨0, _⟩ => rfl
    | ⟨1, _⟩ => show 0 + 1 * q.val = q.val; omega
    | ⟨2, _⟩ => show 0 + 1 * k.val = k.val; omega))

theorem ld_row_2 (x : Vec Ideal S4x256 .f32) (q : Fin 256) : View.ld x r0_7 (ix2 0 q) = x (ix2 2 q) :=
  congrArg x (funext fun a => Fin.ext (by
    match a with
    | ⟨0, _⟩ => rfl
    | ⟨1, _⟩ => show 0 + 1 * q.val = q.val; omega))

theorem ld_slab_3 (x : Vec Ideal S4x256x2048 .bf16) (q : Fin 256) (k : Fin 2048) : View.ld x r0_8 (ix3 0 q k) = x (ix3 3 q k) :=
  congrArg x (funext fun a => Fin.ext (by
    match a with
    | ⟨0, _⟩ => rfl
    | ⟨1, _⟩ => show 0 + 1 * q.val = q.val; omega
    | ⟨2, _⟩ => show 0 + 1 * k.val = k.val; omega))

theorem ld_row_3 (x : Vec Ideal S4x256 .f32) (q : Fin 256) : View.ld x r0_9 (ix2 0 q) = x (ix2 3 q) :=
  congrArg x (funext fun a => Fin.ext (by
    match a with
    | ⟨0, _⟩ => rfl
    | ⟨1, _⟩ => show 0 + 1 * q.val = q.val; omega))

/-! ## The two tiles -/

/-- The hidden-state tile the body stores, at element (r, q), is the cell's new hidden state at the tile's place. -/
theorem hiddenTile (x0 x1 : Vec Ideal S512x2048 .bf16) (x2 : Vec Ideal S4x256x2048 .bf16) (x3 : Vec Ideal S4x256 .f32)
    (x4 : Vec Ideal S4x256x2048 .bf16) (x5 : Vec Ideal S4x256 .f32) (x6 : Vec Ideal S512x256 .f32)
    (X H C : Act.Idx → EReal) (Wx : Wt.Idx → EReal) (bx : Bias.Idx → EReal) (Wh : Wt.Idx → EReal) (bh : Bias.Idx → EReal)
    (bi hi : Nat) (hbi : bi < 8) (hhi : hi < 8)
    (h0 : ∀ (r : Fin 512) (k : Fin 2048), x0 (ix2 r k) = X (ix2 ⟨bi * 512 + r.val, by have := r.isLt; omega⟩ k))
    (h1 : ∀ (r : Fin 512) (k : Fin 2048), x1 (ix2 r k) = H (ix2 ⟨bi * 512 + r.val, by have := r.isLt; omega⟩ k))
    (h2 : ∀ (g : Fin 4) (q : Fin 256) (k : Fin 2048), x2 (ix3 g q k) = Wx (ix2 (gateRow g ⟨hi * 256 + q.val, by have := q.isLt; omega⟩) k))
    (h3 : ∀ (g : Fin 4) (q : Fin 256), x3 (ix2 g q) = bx (ix1 (gateRow g ⟨hi * 256 + q.val, by have := q.isLt; omega⟩)))
    (h4 : ∀ (g : Fin 4) (q : Fin 256) (k : Fin 2048), x4 (ix3 g q k) = Wh (ix2 (gateRow g ⟨hi * 256 + q.val, by have := q.isLt; omega⟩) k))
    (h5 : ∀ (g : Fin 4) (q : Fin 256), x5 (ix2 g q) = bh (ix1 (gateRow g ⟨hi * 256 + q.val, by have := q.isLt; omega⟩)))
    (h6 : ∀ (r : Fin 512) (q : Fin 256), x6 (ix2 r q) = C (ix2 ⟨bi * 512 + r.val, by have := r.isLt; omega⟩ ⟨hi * 256 + q.val, by have := q.isLt; omega⟩))
    (r : Fin 512) (q : Fin 256) :
    out0_7 (F := Ideal) x0 x1 x2 x3 x4 x5 x6 (ix2 r q)
      = hiddenAt X H C Wx bx Wh bh ⟨bi * 512 + r.val, by have := r.isLt; omega⟩ ⟨hi * 256 + q.val, by have := q.isLt; omega⟩ := by
  unfold out0_7
  refine (Value.canon7_eq (F := Ideal) (View.ld x0 r0_0) (View.ld x1 r0_0) (View.ld x2 r0_8) (View.ld x4 r0_8) (View.ld x3 r0_9) (View.ld x5 r0_9)
    (View.ld x2 r0_4) (View.ld x4 r0_4) (View.ld x3 r0_5) (View.ld x5 r0_5) (View.ld x6 r0_1) (View.ld x2 r0_2) (View.ld x4 r0_2) (View.ld x3 r0_3) (View.ld x5 r0_3)
    (View.ld x2 r0_6) (View.ld x4 r0_6) (View.ld x3 r0_7) (View.ld x5 r0_7) (ix2 r q)).trans ?_
  refine (hiddenExpr_apply (View.ld x0 r0_0) (View.ld x1 r0_0) (View.ld x2 r0_8) (View.ld x4 r0_8) (View.ld x3 r0_9) (View.ld x5 r0_9)
    (View.ld x2 r0_4) (View.ld x4 r0_4) (View.ld x3 r0_5) (View.ld x5 r0_5) (View.ld x6 r0_1) (View.ld x2 r0_2) (View.ld x4 r0_2) (View.ld x3 r0_3) (View.ld x5 r0_3)
    (View.ld x2 r0_6) (View.ld x4 r0_6) (View.ld x3 r0_7) (View.ld x5 r0_7) r q).trans ?_
  rw [(tilePre_eq (View.ld x0 r0_0) (View.ld x1 r0_0) (View.ld x2 r0_8) (View.ld x4 r0_8) (View.ld x3 r0_9) (View.ld x5 r0_9)
      X H Wx bx Wh bh ⟨bi * 512 + r.val, by have := r.isLt; omega⟩ (gateRow 3 ⟨hi * 256 + q.val, by have := q.isLt; omega⟩) r q
      (fun k => (ld_act x0 r k).trans (h0 r k)) (fun k => (ld_act x1 r k).trans (h1 r k))
      (fun k => (ld_slab_3 x2 q k).trans (h2 3 q k)) (fun k => (ld_slab_3 x4 q k).trans (h4 3 q k))
      ((ld_row_3 x3 q).trans (h3 3 q)) ((ld_row_3 x5 q).trans (h5 3 q))),
    (tilePre_eq (View.ld x0 r0_0) (View.ld x1 r0_0) (View.ld x2 r0_4) (View.ld x4 r0_4) (View.ld x3 r0_5) (View.ld x5 r0_5)
      X H Wx bx Wh bh ⟨bi * 512 + r.val, by have := r.isLt; omega⟩ (gateRow 1 ⟨hi * 256 + q.val, by have := q.isLt; omega⟩) r q
      (fun k => (ld_act x0 r k).trans (h0 r k)) (fun k => (ld_act x1 r k).trans (h1 r k))
      (fun k => (ld_slab_1 x2 q k).trans (h2 1 q k)) (fun k => (ld_slab_1 x4 q k).trans (h4 1 q k))
      ((ld_row_1 x3 q).trans (h3 1 q)) ((ld_row_1 x5 q).trans (h5 1 q))),
    (tilePre_eq (View.ld x0 r0_0) (View.ld x1 r0_0) (View.ld x2 r0_2) (View.ld x4 r0_2) (View.ld x3 r0_3) (View.ld x5 r0_3)
      X H Wx bx Wh bh ⟨bi * 512 + r.val, by have := r.isLt; omega⟩ (gateRow 0 ⟨hi * 256 + q.val, by have := q.isLt; omega⟩) r q
      (fun k => (ld_act x0 r k).trans (h0 r k)) (fun k => (ld_act x1 r k).trans (h1 r k))
      (fun k => (ld_slab_0 x2 q k).trans (h2 0 q k)) (fun k => (ld_slab_0 x4 q k).trans (h4 0 q k))
      ((ld_row_0 x3 q).trans (h3 0 q)) ((ld_row_0 x5 q).trans (h5 0 q))),
    (tilePre_eq (View.ld x0 r0_0) (View.ld x1 r0_0) (View.ld x2 r0_6) (View.ld x4 r0_6) (View.ld x3 r0_7) (View.ld x5 r0_7)
      X H Wx bx Wh bh ⟨bi * 512 + r.val, by have := r.isLt; omega⟩ (gateRow 2 ⟨hi * 256 + q.val, by have := q.isLt; omega⟩) r q
      (fun k => (ld_act x0 r k).trans (h0 r k)) (fun k => (ld_act x1 r k).trans (h1 r k))
      (fun k => (ld_slab_2 x2 q k).trans (h2 2 q k)) (fun k => (ld_slab_2 x4 q k).trans (h4 2 q k))
      ((ld_row_2 x3 q).trans (h3 2 q)) ((ld_row_2 x5 q).trans (h5 2 q))),
    (ld_state x6 r q).trans (h6 r q)]
  rfl

/-- The cell-state tile the body stores, at element (r, q), is the cell's new cell state at the tile's place. -/
theorem cellTile (x0 x1 : Vec Ideal S512x2048 .bf16) (x2 : Vec Ideal S4x256x2048 .bf16) (x3 : Vec Ideal S4x256 .f32)
    (x4 : Vec Ideal S4x256x2048 .bf16) (x5 : Vec Ideal S4x256 .f32) (x6 : Vec Ideal S512x256 .f32)
    (X H C : Act.Idx → EReal) (Wx : Wt.Idx → EReal) (bx : Bias.Idx → EReal) (Wh : Wt.Idx → EReal) (bh : Bias.Idx → EReal)
    (bi hi : Nat) (hbi : bi < 8) (hhi : hi < 8)
    (h0 : ∀ (r : Fin 512) (k : Fin 2048), x0 (ix2 r k) = X (ix2 ⟨bi * 512 + r.val, by have := r.isLt; omega⟩ k))
    (h1 : ∀ (r : Fin 512) (k : Fin 2048), x1 (ix2 r k) = H (ix2 ⟨bi * 512 + r.val, by have := r.isLt; omega⟩ k))
    (h2 : ∀ (g : Fin 4) (q : Fin 256) (k : Fin 2048), x2 (ix3 g q k) = Wx (ix2 (gateRow g ⟨hi * 256 + q.val, by have := q.isLt; omega⟩) k))
    (h3 : ∀ (g : Fin 4) (q : Fin 256), x3 (ix2 g q) = bx (ix1 (gateRow g ⟨hi * 256 + q.val, by have := q.isLt; omega⟩)))
    (h4 : ∀ (g : Fin 4) (q : Fin 256) (k : Fin 2048), x4 (ix3 g q k) = Wh (ix2 (gateRow g ⟨hi * 256 + q.val, by have := q.isLt; omega⟩) k))
    (h5 : ∀ (g : Fin 4) (q : Fin 256), x5 (ix2 g q) = bh (ix1 (gateRow g ⟨hi * 256 + q.val, by have := q.isLt; omega⟩)))
    (h6 : ∀ (r : Fin 512) (q : Fin 256), x6 (ix2 r q) = C (ix2 ⟨bi * 512 + r.val, by have := r.isLt; omega⟩ ⟨hi * 256 + q.val, by have := q.isLt; omega⟩))
    (r : Fin 512) (q : Fin 256) :
    out0_8 (F := Ideal) x0 x1 x2 x3 x4 x5 x6 (ix2 r q)
      = cellAt X H C Wx bx Wh bh ⟨bi * 512 + r.val, by have := r.isLt; omega⟩ ⟨hi * 256 + q.val, by have := q.isLt; omega⟩ := by
  unfold out0_8
  refine (Value.canon8_eq (F := Ideal) (View.ld x0 r0_0) (View.ld x1 r0_0) (View.ld x2 r0_4) (View.ld x4 r0_4) (View.ld x3 r0_5) (View.ld x5 r0_5)
    (View.ld x6 r0_1) (View.ld x2 r0_2) (View.ld x4 r0_2) (View.ld x3 r0_3) (View.ld x5 r0_3) (View.ld x2 r0_6) (View.ld x4 r0_6) (View.ld x3 r0_7) (View.ld x5 r0_7)
    (ix2 r q)).trans ?_
  refine (cellExpr_apply (View.ld x0 r0_0) (View.ld x1 r0_0) (View.ld x2 r0_4) (View.ld x4 r0_4) (View.ld x3 r0_5) (View.ld x5 r0_5)
    (View.ld x6 r0_1) (View.ld x2 r0_2) (View.ld x4 r0_2) (View.ld x3 r0_3) (View.ld x5 r0_3) (View.ld x2 r0_6) (View.ld x4 r0_6) (View.ld x3 r0_7) (View.ld x5 r0_7)
    r q).trans ?_
  rw [(tilePre_eq (View.ld x0 r0_0) (View.ld x1 r0_0) (View.ld x2 r0_4) (View.ld x4 r0_4) (View.ld x3 r0_5) (View.ld x5 r0_5)
      X H Wx bx Wh bh ⟨bi * 512 + r.val, by have := r.isLt; omega⟩ (gateRow 1 ⟨hi * 256 + q.val, by have := q.isLt; omega⟩) r q
      (fun k => (ld_act x0 r k).trans (h0 r k)) (fun k => (ld_act x1 r k).trans (h1 r k))
      (fun k => (ld_slab_1 x2 q k).trans (h2 1 q k)) (fun k => (ld_slab_1 x4 q k).trans (h4 1 q k))
      ((ld_row_1 x3 q).trans (h3 1 q)) ((ld_row_1 x5 q).trans (h5 1 q))),
    (tilePre_eq (View.ld x0 r0_0) (View.ld x1 r0_0) (View.ld x2 r0_2) (View.ld x4 r0_2) (View.ld x3 r0_3) (View.ld x5 r0_3)
      X H Wx bx Wh bh ⟨bi * 512 + r.val, by have := r.isLt; omega⟩ (gateRow 0 ⟨hi * 256 + q.val, by have := q.isLt; omega⟩) r q
      (fun k => (ld_act x0 r k).trans (h0 r k)) (fun k => (ld_act x1 r k).trans (h1 r k))
      (fun k => (ld_slab_0 x2 q k).trans (h2 0 q k)) (fun k => (ld_slab_0 x4 q k).trans (h4 0 q k))
      ((ld_row_0 x3 q).trans (h3 0 q)) ((ld_row_0 x5 q).trans (h5 0 q))),
    (tilePre_eq (View.ld x0 r0_0) (View.ld x1 r0_0) (View.ld x2 r0_6) (View.ld x4 r0_6) (View.ld x3 r0_7) (View.ld x5 r0_7)
      X H Wx bx Wh bh ⟨bi * 512 + r.val, by have := r.isLt; omega⟩ (gateRow 2 ⟨hi * 256 + q.val, by have := q.isLt; omega⟩) r q
      (fun k => (ld_act x0 r k).trans (h0 r k)) (fun k => (ld_act x1 r k).trans (h1 r k))
      (fun k => (ld_slab_2 x2 q k).trans (h2 2 q k)) (fun k => (ld_slab_2 x4 q k).trans (h4 2 q k))
      ((ld_row_2 x3 q).trans (h3 2 q)) ((ld_row_2 x5 q).trans (h5 2 q))),
    (ld_state x6 r q).trans (h6 r q)]
  rfl

end Cert.KernelIdeal.CellValue

end
-- ==== Proof.Blocks.lean ====
/-
  From tiles to whole arrays.

  The region finds its operand arrays as the host operations before it leave them: the activations unchanged (a change
  of float format is the identity on the extended reals), the stacked weights and biases re-laid as 4 × 2048 (× 2048)
  in row-major order, so that entry (g, n, k) is the stacked entry (g·2048 + n, k). Grid point t = (hi, bi) stages rows
  [512·bi, +512) of the activations, rows [256·hi, +256) of each of the four gate slabs, and tile (bi, hi) of the cell
  state; it writes tile (bi, hi) of both results. The 64 tiles cover the 4096 × 2048 results, so each result array ends
  as the cell's new hidden state, respectively new cell state, everywhere.
-/
import proofs.«123469_j67078799229551_1_alg».proof.Proof.TileCell
import Idealize.ShloMosaic.Lib.StableHlo.Run

noncomputable section

namespace Cert.KernelIdeal.CellValue

open Cert.KernelIdeal Cert.KernelIdeal.Gen Cert.LstmCell
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The argument arrays, and what the region finds -/

abbrev argX (c : Dev nD) : Act.Idx → EReal := m ((c : Thread nD τ).loc main_arg0)
abbrev argH (c : Dev nD) : Act.Idx → EReal := m ((c : Thread nD τ).loc main_arg1)
abbrev argC (c : Dev nD) : Act.Idx → EReal := m ((c : Thread nD τ).loc main_arg2)
abbrev argWx (c : Dev nD) : Wt.Idx → EReal := m ((c : Thread nD τ).loc main_arg3)
abbrev argBx (c : Dev nD) : Bias.Idx → EReal := m ((c : Thread nD τ).loc main_arg4)
abbrev argWh (c : Dev nD) : Wt.Idx → EReal := m ((c : Thread nD τ).loc main_arg5)
abbrev argBh (c : Dev nD) : Bias.Idx → EReal := m ((c : Thread nD τ).loc main_arg6)

theorem entry_x (c : Dev nD) : (V m c main_v0 : S4096x2048.Idx → EReal) = argX m c := by
  dsimp only [Gen.V, Gen.hostOps0]; after_results; rfl

theorem entry_h (c : Dev nD) : (V m c main_v1 : S4096x2048.Idx → EReal) = argH m c := by
  dsimp only [Gen.V, Gen.hostOps0]; after_results; rfl

theorem entry_c (c : Dev nD) : (V m c main_arg2 : S4096x2048.Idx → EReal) = argC m c := V_main_arg2 m c

theorem entry_wx (c : Dev nD) : (V m c main_v3 : S4x2048x2048.Idx → EReal)
    = shapeCast S4x2048x2048 (argWx m c) shapeCasts_S8192x2048_S4x2048x2048 := by
  dsimp only [Gen.V, Gen.hostOps0]; after_results; rfl

theorem entry_wh (c : Dev nD) : (V m c main_v5 : S4x2048x2048.Idx → EReal)
    = shapeCast S4x2048x2048 (argWh m c) shapeCasts_S8192x2048_S4x2048x2048 := by
  dsimp only [Gen.V, Gen.hostOps0]; after_results; rfl

theorem entry_bx (c : Dev nD) : (V m c main_v6 : S4x2048.Idx → EReal)
    = shapeCast S4x2048 (argBx m c) shapeCasts_S8192_S4x2048 := by
  dsimp only [Gen.V, Gen.hostOps0]; after_results; rfl

theorem entry_bh (c : Dev nD) : (V m c main_v7 : S4x2048.Idx → EReal)
    = shapeCast S4x2048 (argBh m c) shapeCasts_S8192_S4x2048 := by
  dsimp only [Gen.V, Gen.hostOps0]; after_results; rfl

/-! ## The index maps over the grid -/

/-- Decided over the 64 grid points: the activations move with the result tile's row block, the gate slabs with its
    column block, the cell state and both results with both; every other block coordinate is zero. -/
theorem idx_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 3) = 0 ∧ win0_2.index t (1 : Fin 3) = win0_7.index t (1 : Fin 2) ∧ win0_2.index t (2 : Fin 3) = 0
    ∧ win0_3.index t (0 : Fin 2) = 0 ∧ win0_3.index t (1 : Fin 2) = win0_7.index t (1 : Fin 2)
    ∧ win0_4.index t (0 : Fin 3) = 0 ∧ win0_4.index t (1 : Fin 3) = win0_7.index t (1 : Fin 2) ∧ win0_4.index t (2 : Fin 3) = 0
    ∧ win0_5.index t (0 : Fin 2) = 0 ∧ win0_5.index t (1 : Fin 2) = win0_7.index t (1 : Fin 2)
    ∧ win0_6.index t (0 : Fin 2) = win0_7.index t (0 : Fin 2) ∧ win0_6.index t (1 : Fin 2) = win0_7.index t (1 : Fin 2)
    ∧ win0_8.index t (0 : Fin 2) = win0_7.index t (0 : Fin 2) ∧ win0_8.index t (1 : Fin 2) = win0_7.index t (1 : Fin 2)
    ∧ win0_7.index t (0 : Fin 2) < 8 ∧ win0_7.index t (1 : Fin 2) < 8 :=
  (by decide +kernel : ∀ t : Fin grid0.N, _)

/-- Every tile of the 8 × 8 tiling is some grid point's. -/
theorem idx_onto : ∀ (q0 : Fin 8) (q1 : Fin 8), ∃ t : Fin cfg0.N, win0_7.index t = ![q0.val, q1.val] :=
  (by decide +kernel : ∀ (q0 : Fin 8) (q1 : Fin 8), ∃ t : Fin grid0.N, win0_7.index t = ![q0.val, q1.val])

theorem rowBlock_lt : ∀ t : Fin cfg0.N, win0_7.index t (0 : Fin 2) < 8 := fun t => (idx_facts t).2.2.2.2.2.2.2.2.2.2.2.2.2.2.2.2.2.2.1
theorem colBlock_lt : ∀ t : Fin cfg0.N, win0_7.index t (1 : Fin 2) < 8 := fun t => (idx_facts t).2.2.2.2.2.2.2.2.2.2.2.2.2.2.2.2.2.2.2

/-! ## The staged blocks are slices of the argument arrays -/

section point
variable (c : Dev nD) (t : Fin cfg0.N)

theorem blk_x (r : Fin 512) (k : Fin 2048) :
    iblk m c 0 t (ix2 r k) = argX m c (ix2 ⟨win0_7.index t (0 : Fin 2) * 512 + r.val, by have := rowBlock_lt t; have := r.isLt; omega⟩ k) := by
  obtain ⟨e00, e01, e10, e11, e20, e21, e22, e30, e31, e40, e41, e42, e50, e51, e60, e61, e80, e81, hb, hh⟩ := idx_facts t
  show V m c main_v0 (((cfg0.win 0).blk t).view.emb (ix2 r k)) = _
  rw [entry_x]
  exact congrArg (argX m c) (funext fun a => Fin.ext (by
    match a with
    | ⟨0, _⟩ => show win0_0.index t (0 : Fin 2) * 512 + 1 * r.val = win0_7.index t (0 : Fin 2) * 512 + r.val; omega
    | ⟨1, _⟩ => show win0_0.index t (1 : Fin 2) * 2048 + 1 * k.val = k.val; omega))

theorem blk_h (r : Fin 512) (k : Fin 2048) :
    iblk m c 1 t (ix2 r k) = argH m c (ix2 ⟨win0_7.index t (0 : Fin 2) * 512 + r.val, by have := rowBlock_lt t; have := r.isLt; omega⟩ k) := by
  obtain ⟨e00, e01, e10, e11, e20, e21, e22, e30, e31, e40, e41, e42, e50, e51, e60, e61, e80, e81, hb, hh⟩ := idx_facts t
  show V m c main_v1 (((cfg0.win 1).blk t).view.emb (ix2 r k)) = _
  rw [entry_h]
  exact congrArg (argH m c) (funext fun a => Fin.ext (by
    match a with
    | ⟨0, _⟩ => show win0_1.index t (0 : Fin 2) * 512 + 1 * r.val = win0_7.index t (0 : Fin 2) * 512 + r.val; omega
    | ⟨1, _⟩ => show win0_1.index t (1 : Fin 2) * 2048 + 1 * k.val = k.val; omega))

theorem blk_wx (g : Fin 4) (q : Fin 256) (k : Fin 2048) :
    iblk m c 2 t (ix3 g q k) = argWx m c (ix2 (gateRow g ⟨win0_7.index t (1 : Fin 2) * 256 + q.val, by have := colBlock_lt t; have := q.isLt; omega⟩) k) := by
  obtain ⟨e00, e01, e10, e11, e20, e21, e22, e30, e31, e40, e41, e42, e50, e51, e60, e61, e80, e81, hb, hh⟩ := idx_facts t
  show V m c main_v3 (((cfg0.win 2).blk t).view.emb (ix3 g q k)) = _
  rw [entry_wx]
  refine shapeCast_apply _ _ _ _ ?_
  rw [Shape.rowMajor_val_two, Shape.rowMajor_val_three]
  show (g.val * 2048 + (win0_7.index t (1 : Fin 2) * 256 + q.val)) * 2048 + k.val
    = ((win0_2.index t (0 : Fin 3) * 4 + 1 * g.val) * 2048 + (win0_2.index t (1 : Fin 3) * 256 + 1 * q.val)) * 2048
      + (win0_2.index t (2 : Fin 3) * 2048 + 1 * k.val)
  omega

theorem blk_bx (g : Fin 4) (q : Fin 256) :
    iblk m c 3 t (ix2 g q) = argBx m c (ix1 (gateRow g ⟨win0_7.index t (1 : Fin 2) * 256 + q.val, by have := colBlock_lt t; have := q.isLt; omega⟩)) := by
  obtain ⟨e00, e01, e10, e11, e20, e21, e22, e30, e31, e40, e41, e42, e50, e51, e60, e61, e80, e81, hb, hh⟩ := idx_facts t
  show V m c main_v6 (((cfg0.win 3).blk t).view.emb (ix2 g q)) = _
  rw [entry_bx]
  refine shapeCast_apply _ _ _ _ ?_
  rw [Shape.rowMajor_val_one, Shape.rowMajor_val_two]
  show g.val * 2048 + (win0_7.index t (1 : Fin 2) * 256 + q.val)
    = (win0_3.index t (0 : Fin 2) * 4 + 1 * g.val) * 2048 + (win0_3.index t (1 : Fin 2) * 256 + 1 * q.val)
  omega

theorem blk_wh (g : Fin 4) (q : Fin 256) (k : Fin 2048) :
    iblk m c 4 t (ix3 g q k) = argWh m c (ix2 (gateRow g ⟨win0_7.index t (1 : Fin 2) * 256 + q.val, by have := colBlock_lt t; have := q.isLt; omega⟩) k) := by
  obtain ⟨e00, e01, e10, e11, e20, e21, e22, e30, e31, e40, e41, e42, e50, e51, e60, e61, e80, e81, hb, hh⟩ := idx_facts t
  show V m c main_v5 (((cfg0.win 4).blk t).view.emb (ix3 g q k)) = _
  rw [entry_wh]
  refine shapeCast_apply _ _ _ _ ?_
  rw [Shape.rowMajor_val_two, Shape.rowMajor_val_three]
  show (g.val * 2048 + (win0_7.index t (1 : Fin 2) * 256 + q.val)) * 2048 + k.val
    = ((win0_4.index t (0 : Fin 3) * 4 + 1 * g.val) * 2048 + (win0_4.index t (1 : Fin 3) * 256 + 1 * q.val)) * 2048
      + (win0_4.index t (2 : Fin 3) * 2048 + 1 * k.val)
  omega

theorem blk_bh (g : Fin 4) (q : Fin 256) :
    iblk m c 5 t (ix2 g q) = argBh m c (ix1 (gateRow g ⟨win0_7.index t (1 : Fin 2) * 256 + q.val, by have := colBlock_lt t; have := q.isLt; omega⟩)) := by
  obtain ⟨e00, e01, e10, e11, e20, e21, e22, e30, e31, e40, e41, e42, e50, e51, e60, e61, e80, e81, hb, hh⟩ := idx_facts t
  show V m c main_v7 (((cfg0.win 5).blk t).view.emb (ix2 g q)) = _
  rw [entry_bh]
  refine shapeCast_apply _ _ _ _ ?_
  rw [Shape.rowMajor_val_one, Shape.rowMajor_val_two]
  show g.val * 2048 + (win0_7.index t (1 : Fin 2) * 256 + q.val)
    = (win0_5.index t (0 : Fin 2) * 4 + 1 * g.val) * 2048 + (win0_5.index t (1 : Fin 2) * 256 + 1 * q.val)
  omega

theorem blk_c (r : Fin 512) (q : Fin 256) :
    iblk m c 6 t (ix2 r q) = argC m c (ix2 ⟨win0_7.index t (0 : Fin 2) * 512 + r.val, by have := rowBlock_lt t; have := r.isLt; omega⟩ ⟨win0_7.index t (1 : Fin 2) * 256 + q.val, by have := colBlock_lt t; have := q.isLt; omega⟩) := by
  obtain ⟨e00, e01, e10, e11, e20, e21, e22, e30, e31, e40, e41, e42, e50, e51, e60, e61, e80, e81, hb, hh⟩ := idx_facts t
  show V m c main_arg2 (((cfg0.win 6).blk t).view.emb (ix2 r q)) = _
  rw [entry_c]
  exact congrArg (argC m c) (funext fun a => Fin.ext (by
    match a with
    | ⟨0, _⟩ => show win0_6.index t (0 : Fin 2) * 512 + 1 * r.val = win0_7.index t (0 : Fin 2) * 512 + r.val; omega
    | ⟨1, _⟩ => show win0_6.index t (1 : Fin 2) * 256 + 1 * q.val = win0_7.index t (1 : Fin 2) * 256 + q.val; omega))

/-! ## What a grid point writes back -/

theorem hidden_at (y : S512x256.Idx) :
    out0_7 (F := Ideal) (iblk m c 0 t) (iblk m c 1 t) (iblk m c 2 t) (iblk m c 3 t) (iblk m c 4 t) (iblk m c 5 t) (iblk m c 6 t) y
      = hiddenAt (argX m c) (argH m c) (argC m c) (argWx m c) (argBx m c) (argWh m c) (argBh m c) ⟨win0_7.index t (0 : Fin 2) * 512 + (y 0).val, by have := rowBlock_lt t; have hy0 : (y 0).val < 512 := (y 0).isLt; omega⟩ ⟨win0_7.index t (1 : Fin 2) * 256 + (y 1).val, by have := colBlock_lt t; have hy1 : (y 1).val < 256 := (y 1).isLt; omega⟩ := by
  have e := hiddenTile (iblk m c 0 t) (iblk m c 1 t) (iblk m c 2 t) (iblk m c 3 t) (iblk m c 4 t) (iblk m c 5 t) (iblk m c 6 t) (argX m c) (argH m c) (argC m c) (argWx m c) (argBx m c) (argWh m c) (argBh m c)
    (win0_7.index t (0 : Fin 2)) (win0_7.index t (1 : Fin 2)) (rowBlock_lt t) (colBlock_lt t)
    (blk_x m c t) (blk_h m c t) (blk_wx m c t) (blk_bx m c t) (blk_wh m c t) (blk_bh m c t) (blk_c m c t) (y 0) (y 1)
  exact (congrArg (out0_7 (F := Ideal) (iblk m c 0 t) (iblk m c 1 t) (iblk m c 2 t) (iblk m c 3 t) (iblk m c 4 t) (iblk m c 5 t) (iblk m c 6 t)) (eq_ix2 y)).trans e

theorem cell_at (y : S512x256.Idx) :
    out0_8 (F := Ideal) (iblk m c 0 t) (iblk m c 1 t) (iblk m c 2 t) (iblk m c 3 t) (iblk m c 4 t) (iblk m c 5 t) (iblk m c 6 t) y
      = cellAt (argX m c) (argH m c) (argC m c) (argWx m c) (argBx m c) (argWh m c) (argBh m c) ⟨win0_7.index t (0 : Fin 2) * 512 + (y 0).val, by have := rowBlock_lt t; have hy0 : (y 0).val < 512 := (y 0).isLt; omega⟩ ⟨win0_7.index t (1 : Fin 2) * 256 + (y 1).val, by have := colBlock_lt t; have hy1 : (y 1).val < 256 := (y 1).isLt; omega⟩ := by
  have e := cellTile (iblk m c 0 t) (iblk m c 1 t) (iblk m c 2 t) (iblk m c 3 t) (iblk m c 4 t) (iblk m c 5 t) (iblk m c 6 t) (argX m c) (argH m c) (argC m c) (argWx m c) (argBx m c) (argWh m c) (argBh m c)
    (win0_7.index t (0 : Fin 2)) (win0_7.index t (1 : Fin 2)) (rowBlock_lt t) (colBlock_lt t)
    (blk_x m c t) (blk_h m c t) (blk_wx m c t) (blk_bx m c t) (blk_wh m c t) (blk_bh m c t) (blk_c m c t) (y 0) (y 1)
  exact (congrArg (out0_8 (F := Ideal) (iblk m c 0 t) (iblk m c 1 t) (iblk m c 2 t) (iblk m c 3 t) (iblk m c 4 t) (iblk m c 5 t) (iblk m c 6 t)) (eq_ix2 y)).trans e

/-- What grid point `t` writes back to result 0 is tile `t` of the cell's new hidden state. -/
theorem flushed_hidden :
    (dats m 0 c).flushed 7 t = ((cfg0.win 7).blk t).view.read (Elt Ideal) (hiddenState (argX m c) (argH m c) (argC m c) (argWx m c) (argBx m c) (argWh m c) (argBh m c)) := by
  obtain ⟨e00, e01, e10, e11, e20, e21, e22, e30, e31, e40, e41, e42, e50, e51, e60, e61, e80, e81, hb, hh⟩ := idx_facts t
  rw [Value.flushed7]
  funext y
  refine (hidden_at m c t y).trans ?_
  show hiddenAt (argX m c) (argH m c) (argC m c) (argWx m c) (argBx m c) (argWh m c) (argBh m c) _ _
    = hiddenAt (argX m c) (argH m c) (argC m c) (argWx m c) (argBx m c) (argWh m c) (argBh m c) ((((cfg0.win 7).blk t).view.emb y) 0) ((((cfg0.win 7).blk t).view.emb y) 1)
  refine congrArg₂ _ (Fin.ext ?_) (Fin.ext ?_)
  · show win0_7.index t (0 : Fin 2) * 512 + (y 0).val = win0_7.index t (0 : Fin 2) * 512 + 1 * (y 0).val; omega
  · show win0_7.index t (1 : Fin 2) * 256 + (y 1).val = win0_7.index t (1 : Fin 2) * 256 + 1 * (y 1).val; omega

/-- What grid point `t` writes back to result 1 is tile `t` of the cell's new cell state. -/
theorem flushed_cell :
    (dats m 0 c).flushed 8 t = ((cfg0.win 8).blk t).view.read (Elt Ideal) (cellState (argX m c) (argH m c) (argC m c) (argWx m c) (argBx m c) (argWh m c) (argBh m c)) := by
  obtain ⟨e00, e01, e10, e11, e20, e21, e22, e30, e31, e40, e41, e42, e50, e51, e60, e61, e80, e81, hb, hh⟩ := idx_facts t
  rw [Value.flushed8]
  funext y
  refine (cell_at m c t y).trans ?_
  show cellAt (argX m c) (argH m c) (argC m c) (argWx m c) (argBx m c) (argWh m c) (argBh m c) _ _
    = cellAt (argX m c) (argH m c) (argC m c) (argWx m c) (argBx m c) (argWh m c) (argBh m c) ((((cfg0.win 8).blk t).view.emb y) 0) ((((cfg0.win 8).blk t).view.emb y) 1)
  refine congrArg₂ _ (Fin.ext ?_) (Fin.ext ?_)
  · show win0_7.index t (0 : Fin 2) * 512 + (y 0).val = win0_8.index t (0 : Fin 2) * 512 + 1 * (y 0).val; omega
  · show win0_7.index t (1 : Fin 2) * 256 + (y 1).val = win0_8.index t (1 : Fin 2) * 256 + 1 * (y 1).val; omega

end point

/-! ## The tiles cover the results -/

/-- An index of result 0 is in point `t`'s tile iff each coordinate is in the tile's range. -/
theorem mem_tile7 (t : Fin cfg0.N) (i : S4096x2048.Idx) :
    i ∈ ((cfg0.win 7).blk t).view.set ↔ ∀ a : Fin 2, win0_7.index t a * S512x256.size a ≤ (i a).val
      ∧ (i a).val < win0_7.index t a * S512x256.size a + S512x256.size a := by
  show i ∈ ((View.whole main_v8_0).slice (win0_7.rect t)).set ↔ _
  rw [View.set_slice_whole, Rect.mem_set_unit]
  exact Iff.rfl

/-- Every index of result 0 lies in the tile of the point with row block ⌊i₀ / 512⌋ and column block ⌊i₁ / 256⌋. -/
theorem cover7 (i : S4096x2048.Idx) : ∃ t : Fin cfg0.N, (cfg0.win 7).flush t = true ∧ i ∈ ((cfg0.win 7).blk t).view.set := by
  have hi0 : (i 0).val < 4096 := (i 0).isLt
  have hi1 : (i 1).val < 2048 := (i 1).isLt
  obtain ⟨t, ht⟩ := idx_onto ⟨(i 0).val / 512, by omega⟩ ⟨(i 1).val / 256, by omega⟩
  have q0 : win0_7.index t (0 : Fin 2) = (i 0).val / 512 := congrFun ht 0
  have q1 : win0_7.index t (1 : Fin 2) = (i 1).val / 256 := congrFun ht 1
  obtain ⟨e00, e01, e10, e11, e20, e21, e22, e30, e31, e40, e41, e42, e50, e51, e60, e61, e80, e81, hb, hh⟩ := idx_facts t
  refine ⟨t, flush0_7 t, ?_⟩
  rw [mem_tile7]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 256 ≤ (i 1).val ∧ (i 1).val < win0_7.index t (1 : Fin 2) * 256 + 256; omega

/-- An index of result 1 is in point `t`'s tile iff each coordinate is in the tile's range. -/
theorem mem_tile8 (t : Fin cfg0.N) (i : S4096x2048.Idx) :
    i ∈ ((cfg0.win 8).blk t).view.set ↔ ∀ a : Fin 2, win0_8.index t a * S512x256.size a ≤ (i a).val
      ∧ (i a).val < win0_8.index t a * S512x256.size a + S512x256.size a := by
  show i ∈ ((View.whole main_v8_1).slice (win0_8.rect t)).set ↔ _
  rw [View.set_slice_whole, Rect.mem_set_unit]
  exact Iff.rfl

/-- Every index of result 1 lies in the tile of the point with row block ⌊i₀ / 512⌋ and column block ⌊i₁ / 256⌋. -/
theorem cover8 (i : S4096x2048.Idx) : ∃ t : Fin cfg0.N, (cfg0.win 8).flush t = true ∧ i ∈ ((cfg0.win 8).blk t).view.set := by
  have hi0 : (i 0).val < 4096 := (i 0).isLt
  have hi1 : (i 1).val < 2048 := (i 1).isLt
  obtain ⟨t, ht⟩ := idx_onto ⟨(i 0).val / 512, by omega⟩ ⟨(i 1).val / 256, by omega⟩
  have q0 : win0_7.index t (0 : Fin 2) = (i 0).val / 512 := congrFun ht 0
  have q1 : win0_7.index t (1 : Fin 2) = (i 1).val / 256 := congrFun ht 1
  obtain ⟨e00, e01, e10, e11, e20, e21, e22, e30, e31, e40, e41, e42, e50, e51, e60, e61, e80, e81, hb, hh⟩ := idx_facts t
  refine ⟨t, flush0_8 t, ?_⟩
  rw [mem_tile8]
  intro a
  match a with
  | ⟨0, _⟩ => show win0_8.index t (0 : Fin 2) * 512 ≤ (i 0).val ∧ (i 0).val < win0_8.index t (0 : Fin 2) * 512 + 512; omega
  | ⟨1, _⟩ => show win0_8.index t (1 : Fin 2) * 256 ≤ (i 1).val ∧ (i 1).val < win0_8.index t (1 : Fin 2) * 256 + 256; omega

/-! ## The result arrays, and the run -/

/-- After the region, result 0 is the cell's new hidden state. -/
theorem final_hidden (c : Dev nD) : (dats m 0 c).arrAt 7 cfg0.N = hiddenState (argX m c) (argH m c) (argC m c) (argWx m c) (argBx m c) (argWh m c) (argBh m c) :=
  (dats m 0 c).arrAt_eq_of_cover 7 (hiddenState (argX m c) (argH m c) (argC m c) (argWx m c) (argBx m c) (argWh m c) (argBh m c)) (fun t _ => flushed_hidden m c t) cover7

/-- After the region, result 1 is the cell's new cell state. -/
theorem final_cell (c : Dev nD) : (dats m 0 c).arrAt 8 cfg0.N = cellState (argX m c) (argH m c) (argC m c) (argWx m c) (argBx m c) (argWh m c) (argBh m c) :=
  (dats m 0 c).arrAt_eq_of_cover 8 (cellState (argX m c) (argH m c) (argC m c) (argWx m c) (argBx m c) (argWh m c) (argBh m c)) (fun t _ => flushed_cell m c t) cover8

/-- Every weakly fair execution of the kernel program terminates with the two results at the cell's new hidden and
    cell state of the argument arrays, the arguments unchanged. -/
theorem run : θ_run defs (onTc (τ := τ) (main (F := Ideal))) ⟨m, fun _ => 0, ρ⟩ fun r => ∀ c : Dev nD,
    r.2.mem ((c : Thread nD τ).loc main_v8_0) = hiddenState (argX m c) (argH m c) (argC m c) (argWx m c) (argBx m c) (argWh m c) (argBh m c)
    ∧ r.2.mem ((c : Thread nD τ).loc main_v8_1) = cellState (argX m c) (argH m c) (argC m c) (argWx m c) (argBx m c) (argWh m c) (argBh m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6) :=
  (θ_run defs _ _).mono (fun r h c => ⟨(h c).1.trans (final_hidden m c), (h c).2.1.trans (final_cell m c), (h c).2.2⟩)
    (Value.run_blocks m ρ)

end Cert.KernelIdeal.CellValue

end
-- ==== Proof.RefValue.lean ====
/-
  The reference program's two results are the cell's new hidden state and new cell state.

  Read one operation at a time, the reference forms the stacked pre-activations
      gates[b,n] = ((Σ_k x[b,k]·Wxᵀ[k,n] + bx[n]) + Σ_k h[b,k]·Whᵀ[k,n]) + bh[n],
  which is `pre b n` term for term (the transposes only exchange the two coordinates of a weight), cuts the four gates
  out of it as the column ranges [0,2048), [2048,4096), [4096,6144), [6144,8192) — column `g·2048 + j` for gate `g` of
  unit `j` —, spells each logistic function out as 1 / (1 + exp(-z)), and combines the gates as the cell does.
-/
import proofs.«123469_j67078799229551_1_alg».proof.Proof.Gen.ReferenceIdeal.Read
import proofs.«123469_j67078799229551_1_alg».proof.Proof.Spec

noncomputable section

namespace Cert.ReferenceIdeal.CellValue

open Cert.ReferenceIdeal Cert.ReferenceIdeal.Gen Cert.ReferenceIdeal.Read Cert.LstmCell
open Idealize.ShloMosaic Idealize.ShloMosaic.ValueIdx

variable (x0 x1 x2 : (⟨S4096x2048, .f32⟩ : BufTy).Contents (Elt Ideal)) (x3 : (⟨S8192x2048, .f32⟩ : BufTy).Contents (Elt Ideal))
  (x4 : (⟨S8192, .f32⟩ : BufTy).Contents (Elt Ideal)) (x5 : (⟨S8192x2048, .f32⟩ : BufTy).Contents (Elt Ideal))
  (x6 : (⟨S8192, .f32⟩ : BufTy).Contents (Elt Ideal))

/-- The input-to-hidden product, as the reference's `dot_general` against the transposed weights computes it. -/
theorem inputProduct_apply (b : Fin 4096) (n : Fin 8192) :
    val_main_v1 (F := Ideal) x0 x3 (ix2 b n) = dotX x0 x3 b n := by
  rw [val_main_v1_apply]
  unfold dotX
  refine Finset.sum_congr rfl fun k _ => ?_
  rw [val_main_v0_apply]
  have el : lidx_main_v1 (ix2 b n) k = ix2 b k := funext fun a => Fin.ext (by match a with | ⟨0, _⟩ => rfl | ⟨1, _⟩ => rfl)
  have er : idx_main_v0 (ridx_main_v1 (ix2 b n) k) = ix2 n k := funext fun a => Fin.ext (by match a with | ⟨0, _⟩ => rfl | ⟨1, _⟩ => rfl)
  rw [el, er]

/-- The hidden-to-hidden product, likewise. -/
theorem hiddenProduct_apply (b : Fin 4096) (n : Fin 8192) :
    val_main_v6 (F := Ideal) x1 x5 (ix2 b n) = dotH x1 x5 b n := by
  rw [val_main_v6_apply]
  unfold dotH
  refine Finset.sum_congr rfl fun k _ => ?_
  rw [val_main_v5_apply]
  have el : lidx_main_v6 (ix2 b n) k = ix2 b k := funext fun a => Fin.ext (by match a with | ⟨0, _⟩ => rfl | ⟨1, _⟩ => rfl)
  have er : idx_main_v5 (ridx_main_v6 (ix2 b n) k) = ix2 n k := funext fun a => Fin.ext (by match a with | ⟨0, _⟩ => rfl | ⟨1, _⟩ => rfl)
  rw [el, er]

/-- The input bias, broadcast along the batch, read at a row and a stacked column. -/
theorem inputBias_apply (b : Fin 4096) (n : Fin 8192) : val_main_v3 (F := Ideal) x4 (ix2 b n) = x4 (ix1 n) := by
  rw [val_main_v3_apply, val_main_v2_apply]
  exact congrArg x4 (funext fun a => Fin.ext (by match a with | ⟨0, _⟩ => rfl))

/-- The hidden bias, likewise. -/
theorem hiddenBias_apply (b : Fin 4096) (n : Fin 8192) : val_main_v9 (F := Ideal) x6 (ix2 b n) = x6 (ix1 n) := by
  rw [val_main_v9_apply, val_main_v8_apply]
  exact congrArg x6 (funext fun a => Fin.ext (by match a with | ⟨0, _⟩ => rfl))

/-- The stacked pre-activations the reference forms are `pre`. -/
theorem gates_apply (b : Fin 4096) (n : Fin 8192) :
    val_main_v10 (F := Ideal) x0 x1 x3 x4 x5 x6 (ix2 b n) = pre x0 x1 x3 x4 x5 x6 b n := by
  rw [val_main_v10_apply, val_main_v7_apply, val_main_v4_apply, inputProduct_apply, hiddenProduct_apply, inputBias_apply,
    hiddenBias_apply]
  rfl

/-- The input gate's slice: columns [0, 2048). -/
theorem inputSlice_apply (b : Fin 4096) (j : Fin 2048) :
    val_main_v11 (F := Ideal) x0 x1 x3 x4 x5 x6 (ix2 b j) = pre x0 x1 x3 x4 x5 x6 b (gateRow 0 j) := by
  rw [val_main_v11_apply]
  have e : idx_main_v11 (ix2 b j) = ix2 b (gateRow 0 j) := funext fun a => Fin.ext (by
    match a with
    | ⟨0, _⟩ => rfl
    | ⟨1, _⟩ => show j.val = 0 * 2048 + j.val; omega)
  rw [e, gates_apply]

/-- The forget gate's slice: columns [2048, 4096). -/
theorem forgetSlice_apply (b : Fin 4096) (j : Fin 2048) :
    val_main_v12 (F := Ideal) x0 x1 x3 x4 x5 x6 (ix2 b j) = pre x0 x1 x3 x4 x5 x6 b (gateRow 1 j) := by
  rw [val_main_v12_apply]
  have e : idx_main_v12 (ix2 b j) = ix2 b (gateRow 1 j) := funext fun a => Fin.ext (by
    match a with
    | ⟨0, _⟩ => rfl
    | ⟨1, _⟩ => show 2048 + j.val = 1 * 2048 + j.val; omega)
  rw [e, gates_apply]

/-- The candidate's slice: columns [4096, 6144). -/
theorem candidateSlice_apply (b : Fin 4096) (j : Fin 2048) :
    val_main_v13 (F := Ideal) x0 x1 x3 x4 x5 x6 (ix2 b j) = pre x0 x1 x3 x4 x5 x6 b (gateRow 2 j) := by
  rw [val_main_v13_apply]
  have e : idx_main_v13 (ix2 b j) = ix2 b (gateRow 2 j) := funext fun a => Fin.ext (by
    match a with
    | ⟨0, _⟩ => rfl
    | ⟨1, _⟩ => show 4096 + j.val = 2 * 2048 + j.val; omega)
  rw [e, gates_apply]

/-- The output gate's slice: columns [6144, 8192). -/
theorem outputSlice_apply (b : Fin 4096) (j : Fin 2048) :
    val_main_v14 (F := Ideal) x0 x1 x3 x4 x5 x6 (ix2 b j) = pre x0 x1 x3 x4 x5 x6 b (gateRow 3 j) := by
  rw [val_main_v14_apply]
  have e : idx_main_v14 (ix2 b j) = ix2 b (gateRow 3 j) := funext fun a => Fin.ext (by
    match a with
    | ⟨0, _⟩ => rfl
    | ⟨1, _⟩ => show 6144 + j.val = 3 * 2048 + j.val; omega)
  rw [e, gates_apply]

/-- The input gate: the logistic function of its pre-activation, spelt 1 / (1 + exp(-z)). -/
theorem inputGate_apply (b : Fin 4096) (j : Fin 2048) :
    val_main_v20 (F := Ideal) x0 x1 x3 x4 x5 x6 (ix2 b j) = Ideal.logistic (pre x0 x1 x3 x4 x5 x6 b (gateRow 0 j)) := by
  rw [val_main_v20_apply, val_main_v19_apply, val_main_cst_0_apply, val_main_v18_apply, val_main_v17_apply, val_main_cst_apply,
    val_main_v16_apply, val_main_v15_apply, inputSlice_apply]
  exact logistic_expanded _

/-- The forget gate. -/
theorem forgetGate_apply (b : Fin 4096) (j : Fin 2048) :
    val_main_v26 (F := Ideal) x0 x1 x3 x4 x5 x6 (ix2 b j) = Ideal.logistic (pre x0 x1 x3 x4 x5 x6 b (gateRow 1 j)) := by
  rw [val_main_v26_apply, val_main_v25_apply, val_main_cst_2_apply, val_main_v24_apply, val_main_v23_apply, val_main_cst_1_apply,
    val_main_v22_apply, val_main_v21_apply, forgetSlice_apply]
  exact logistic_expanded _

/-- The output gate. -/
theorem outputGate_apply (b : Fin 4096) (j : Fin 2048) :
    val_main_v33 (F := Ideal) x0 x1 x3 x4 x5 x6 (ix2 b j) = Ideal.logistic (pre x0 x1 x3 x4 x5 x6 b (gateRow 3 j)) := by
  rw [val_main_v33_apply, val_main_v32_apply, val_main_cst_4_apply, val_main_v31_apply, val_main_v30_apply, val_main_cst_3_apply,
    val_main_v29_apply, val_main_v28_apply, outputSlice_apply]
  exact logistic_expanded _

/-- The reference's second result is the new cell state. -/
theorem cell_eq : val_main_v36 (F := Ideal) x0 x1 x2 x3 x4 x5 x6 = cellState x0 x1 x2 x3 x4 x5 x6 := by
  funext i
  obtain ⟨b, j, rfl⟩ : ∃ (b : Fin 4096) (j : Fin 2048), i = ix2 b j := ⟨i 0, i 1, eq_ix2 i⟩
  rw [val_main_v36_apply, val_main_v34_apply, val_main_v35_apply, forgetGate_apply, inputGate_apply, val_main_v27_apply,
    candidateSlice_apply]
  rfl

/-- The reference's first result is the new hidden state. -/
theorem hidden_eq : val_main_v38 (F := Ideal) x0 x1 x2 x3 x4 x5 x6 = hiddenState x0 x1 x2 x3 x4 x5 x6 := by
  funext i
  obtain ⟨b, j, rfl⟩ : ∃ (b : Fin 4096) (j : Fin 2048), i = ix2 b j := ⟨i 0, i 1, eq_ix2 i⟩
  rw [val_main_v38_apply, val_main_v37_apply, outputGate_apply, cell_eq]
  rfl

end Cert.ReferenceIdeal.CellValue

end
-- ==== Proof.lean ====
/-
  An LSTM cell as one tiled kernel against its plain formulation.

  Inputs: activations x, previous hidden state h and previous cell state c (4096 × 2048 each), stacked gate weights
  Wx, Wh (8192 × 2048: the input, forget, candidate and output gates' 2048 rows one after another) and stacked
  biases bx, bh (8192). With
      pre[b,n] = Σ_k x[b,k]·Wx[n,k] + bx[n] + Σ_k h[b,k]·Wh[n,k] + bh[n]
  and σ the logistic function, both programs return
      c'[b,j] = σ(pre[b,2048+j])·c[b,j] + σ(pre[b,j])·tanh(pre[b,4096+j]),   h'[b,j] = σ(pre[b,6144+j])·tanh(c'[b,j]).

  The plain program forms all 8192 columns of `pre` with two whole matrix products, cuts the four gates out as column
  ranges and spells σ as 1 / (1 + exp(-z)). The kernel works tile by tile — 512 batch rows by 256 hidden units per
  grid point — with the weights re-laid as 4 × 2048 × 2048 so that one block holds the four gates' rows of the tile's
  hidden units; per gate it adds the two products first and the two biases afterwards. On the extended reals the two
  agree exactly: a change of float format is the identity, a product into a zero accumulator is the plain sum over
  the features, addition is commutative and associative (so the order of the four summands does not matter; no
  finiteness is used), σ is its expansion by definition, and the 64 tiles cover both results.

  The idealized kernel is the kernel's own text read on the extended reals (no operation was rewritten), so there is
  nothing to preserve beyond that.
-/
import proofs.«123469_j67078799229551_1_alg».proof.Defs
import proofs.«123469_j67078799229551_1_alg».proof.Proof.Gen.Kernel
import proofs.«123469_j67078799229551_1_alg».proof.Proof.Gen.Kernel.Skeleton
import proofs.«123469_j67078799229551_1_alg».proof.Proof.Gen.Kernel.Launch
import proofs.«123469_j67078799229551_1_alg».proof.Proof.Gen.Kernel.Points
import proofs.«123469_j67078799229551_1_alg».proof.Proof.Gen.Kernel.Frame
import proofs.«123469_j67078799229551_1_alg».proof.Proof.Gen.KernelIdeal
import proofs.«123469_j67078799229551_1_alg».proof.Proof.Gen.KernelIdeal.Skeleton
import proofs.«123469_j67078799229551_1_alg».proof.Proof.Gen.KernelIdeal.Launch
import proofs.«123469_j67078799229551_1_alg».proof.Proof.Gen.KernelIdeal.Points
import proofs.«123469_j67078799229551_1_alg».proof.Proof.Gen.KernelIdeal.Frame
import proofs.«123469_j67078799229551_1_alg».proof.Proof.Gen.ReferenceIdeal
import proofs.«123469_j67078799229551_1_alg».proof.Proof.Gen.Pre_finite_inputs
import proofs.«123469_j67078799229551_1_alg».proof.Proof.Gen.KernelIdeal.Value
import proofs.«123469_j67078799229551_1_alg».proof.Proof.Gen.ReferenceIdeal.Run
import proofs.«123469_j67078799229551_1_alg».proof.Proof.Gen.ReferenceIdeal.Read
import proofs.«123469_j67078799229551_1_alg».proof.Proof.Blocks
import proofs.«123469_j67078799229551_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The plain program runs and leaves its arguments unchanged: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- No operation was rewritten when the kernel was idealized. -/
theorem preserves : Cert.preserves_Kernel_KernelIdeal := trivial

/-- From memories that agree on the seven arguments, the kernel and the plain program both end with the cell's new
    hidden state and new cell state of those arguments. -/
theorem algebraic : Cert.algebraic_KernelIdeal_ReferenceIdeal := by
  intro m ρ m' ρ' _ hagree
  refine ⟨_, _, Cert.KernelIdeal.CellValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6⟩ := hagree c
    rw [Cert.ReferenceIdeal.Read.val_main_v38_eq, Cert.ReferenceIdeal.CellValue.hidden_eq, a0, a1, a2, a3, a4, a5, a6]
  · obtain ⟨a0, a1, a2, a3, a4, a5, a6⟩ := hagree c
    refine (Cert.ReferenceIdeal.Read.val_main_v36_eq (F := Ideal) _ _ _ _ _ _ _).trans ?_
    rw [Cert.ReferenceIdeal.CellValue.cell_eq, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
